-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩

abbrev nBuf : Space → Nat
  | .hbm => 129
  | .vmem => 15
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S512x64, .f32⟩
  | 115 => ⟨S100000x1, .i32⟩
  | 116 => ⟨S512x64, .f32⟩
  | 117 => ⟨S_, .f32⟩
  | 118 => ⟨S100000, .f32⟩
  | 119 => ⟨S_, .f32⟩
  | 120 => ⟨S512, .f32⟩
  | 121 => ⟨S100000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x64, .f32⟩
  | _ => ⟨S100000x64, .f32⟩

abbrev hbmTy0_1 (i : Nat) : BufTy := match i % 128 with
  | 0 => ⟨S512x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S512x64, .f32⟩
  | 115 => ⟨S100000x1, .i32⟩
  | 116 => ⟨S512x64, .f32⟩
  | 117 => ⟨S_, .f32⟩
  | 118 => ⟨S100000, .f32⟩
  | 119 => ⟨S_, .f32⟩
  | 120 => ⟨S512, .f32⟩
  | 121 => ⟨S100000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x64, .f32⟩
  | _ => ⟨S100000x64, .f32⟩

abbrev hbmTy0_1 (i : Nat) : BufTy := match i % 128 with
  | 0 => ⟨S512x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.Dense.lean ====
/-
  The dense layer that both programs apply three times.

  `linear x w` is the [100000, 64] array whose entry (r, j) is the sum over k < 64 of x[r, k] · w[k, j], taken on the
  extended reals. The kernel computes it tile by tile: a tile of 10000 rows is cast to bf16 (the identity on
  extended reals), multiplied by the whole [64, 64] weight into a zero accumulator, and stored. Read at an entry
  (a, j) of the tile, that product is the same sum over k of tile[a, k] · w[k, j] (`tile_apply`), because the
  contraction has the single axis of extent 64 and the zero accumulator adds nothing.
-/
import proofs.«163716_j4020089389576_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.TcCoe Idealize.SL.Sem

/-- Entry (r, k) of the left operand, for the output entry i = (r, j). -/
abbrev lhsAt (i : S100000x64.Idx) (k : Fin 64) : S100000x64.Idx := fun a => match a with
  | ⟨0, _⟩ => ⟨(i 0).val, (i 0).isLt⟩
  | ⟨1, _⟩ => ⟨k.val, k.isLt⟩
/-- Entry (k, j) of the weight, for the output entry i = (r, j). -/
abbrev rhsAt (i : S100000x64.Idx) (k : Fin 64) : S64x64.Idx := fun a => match a with
  | ⟨0, _⟩ => ⟨k.val, k.isLt⟩
  | ⟨1, _⟩ => ⟨(i 1).val, (i 1).isLt⟩

/-- The dense layer on the extended reals: entry (r, j) is Σ_k x[r, k] · w[k, j]. -/
def linear (x : Vec Ideal S100000x64 .f32) (w : Vec Ideal S64x64 .f32) : Vec Ideal S100000x64 .f32 :=
  fun i => ∑ k : Fin 64, x (lhsAt i k) * w (rhsAt i k)

/-- Entry (a, k) of a 10000-row tile, for the tile's output entry y = (a, j). -/
abbrev tileLhs (y : S10000x64.Idx) (k : Fin 64) : S10000x64.Idx := fun a => match a with
  | ⟨0, _⟩ => ⟨(y 0).val, (y 0).isLt⟩
  | ⟨1, _⟩ => ⟨k.val, k.isLt⟩
/-- Entry (k, j) of the weight, for the tile's output entry y = (a, j). -/
abbrev tileRhs (y : S10000x64.Idx) (k : Fin 64) : S64x64.Idx := fun a => match a with
  | ⟨0, _⟩ => ⟨k.val, k.isLt⟩
  | ⟨1, _⟩ => ⟨(y 1).val, (y 1).isLt⟩

/-- The tile product's left operand index keeps the output's row. -/
theorem tile_lhs_0 (y : S10000x64.Idx) (q : dot_S10000x64_S64x64_S10000x64_1_0_0_1_n_n.contr.Idx) :
    (dot_S10000x64_S64x64_S10000x64_1_0_0_1_n_n.lhsIdx y q 0).val = (y 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- Its column is the contraction index. -/
theorem tile_lhs_1 (y : S10000x64.Idx) (q : dot_S10000x64_S64x64_S10000x64_1_0_0_1_n_n.contr.Idx) :
    (dot_S10000x64_S64x64_S10000x64_1_0_0_1_n_n.lhsIdx y q 1).val = (q ⟨0, by decide⟩).val :=
  dot_S10000x64_S64x64_S10000x64_1_0_0_1_n_n.lhsIdx_val_of_single rfl y q
/-- The weight's row is the contraction index. -/
theorem tile_rhs_0 (y : S10000x64.Idx) (q : dot_S10000x64_S64x64_S10000x64_1_0_0_1_n_n.contr.Idx) :
    (dot_S10000x64_S64x64_S10000x64_1_0_0_1_n_n.rhsIdx y q 0).val = (q ⟨0, by decide⟩).val :=
  dot_S10000x64_S64x64_S10000x64_1_0_0_1_n_n.rhsIdx_val_of_single rfl y q
/-- The weight's column is the output's column. -/
theorem tile_rhs_1 (y : S10000x64.Idx) (q : dot_S10000x64_S64x64_S10000x64_1_0_0_1_n_n.contr.Idx) :
    (dot_S10000x64_S64x64_S10000x64_1_0_0_1_n_n.rhsIdx y q 1).val = (y 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The tile's product into the zero accumulator, read at an entry: the sum over the 64 contraction indices. -/
theorem tile_matmul_apply (a : FVec Ideal S10000x64 .bf16) (b : FVec Ideal S64x64 .bf16) (y : S10000x64.Idx) :
    matmul dot_S10000x64_S64x64_S10000x64_1_0_0_1_n_n none a b (constant (F := Ideal) S10000x64 .f32 0x00000000#32) y
      = ∑ k : Fin 64, a (tileLhs y k) * b (tileRhs y k) := by
  show FloatOps.matmul dot_S10000x64_S64x64_S10000x64_1_0_0_1_n_n none a b (constant (F := Ideal) S10000x64 .f32 0x00000000#32) y = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = tileLhs y k := funext fun a => Fin.ext (by
    match a with
    | ⟨0, _⟩ => exact tile_lhs_0 _ _
    | ⟨1, _⟩ => exact (tile_lhs_1 _ _).trans hk)
  have er : dot_S10000x64_S64x64_S10000x64_1_0_0_1_n_n.rhsIdx y ((ValueIdx.contrEquiv1 dot_S10000x64_S64x64_S10000x64_1_0_0_1_n_n 64 rfl rfl).symm k) = tileRhs y k := funext fun a => Fin.ext (by
    match a with
    | ⟨0, _⟩ => exact (tile_rhs_0 _ _).trans hk
    | ⟨1, _⟩ => exact tile_rhs_1 _ _)
  rw [el, er]

/-- The first kernel's stored value at an entry of its tile. -/
theorem pay0_apply (x0 : Vec Ideal S10000x64 .f32) (x1 : Vec Ideal S64x64 .f32) (y : S10000x64.Idx) :
    k0_pay1 (F := Ideal) x0 x1 y = ∑ k : Fin 64, x0 (tileLhs y k) * x1 (tileRhs y k) := by
  unfold k0_pay1
  exact tile_matmul_apply _ _ y
/-- The second kernel's stored value at an entry of its tile (its identity reshape of the tile drops out). -/
theorem pay1_apply (x0 : Vec Ideal S10000x64 .f32) (x1 : Vec Ideal S64x64 .f32) (y : S10000x64.Idx) :
    k1_pay1 (F := Ideal) x0 x1 y = ∑ k : Fin 64, x0 (tileLhs y k) * x1 (tileRhs y k) := by
  unfold k1_pay1
  rw [shapeCast_self]
  exact tile_matmul_apply _ _ y
/-- The third kernel's stored value at an entry of its tile. -/
theorem pay2_apply (x0 : Vec Ideal S10000x64 .f32) (x1 : Vec Ideal S64x64 .f32) (y : S10000x64.Idx) :
    k2_pay1 (F := Ideal) x0 x1 y = ∑ k : Fin 64, x0 (tileLhs y k) * x1 (tileRhs y k) := by
  unfold k2_pay1
  rw [shapeCast_self]
  exact tile_matmul_apply _ _ y

end Cert.KernelIdeal.Dense

end
-- ==== Proof.Region0.lean ====
/-
  What the first pallas_call leaves in its output array.

  The call runs over ten grid points. Point t reads rows 10000·t … 10000·t + 9999 of its [100000, 64] operand and the
  whole [64, 64] weight, and writes back the same rows of the output. Each written-back tile is the corresponding
  block of `linear h w` (the dense layer of the operand array h and the weight w as the call finds them): entry
  (a, j) of the tile is Σ_k tile[a, k] · w[k, j], and tile[a, k] is h[10000·t + a, k]. The ten tiles cover every row,
  so after the call the output array IS `linear h w`.
-/
import proofs.«163716_j4020089389576_1_alg».proof.Proof.Gen.KernelIdeal.Frame
import proofs.«163716_j4020089389576_1_alg».proof.Proof.Dense

set_option maxRecDepth 16384

noncomputable section

namespace Cert.KernelIdeal.Region0

open Cert.KernelIdeal Cert.KernelIdeal.Gen Cert.KernelIdeal.Dense
open Idealize.ShloMosaic Idealize.ShloMosaic.TcCoe Idealize.SL.Sem
open Idealize.ShloMosaic.Pipeline (Dat Cfg Window)

-- the buffer contents when the call is entered
variable (V : (c : Dev nD) → (b : Ref sig .tc) → Buf (Elt Ideal) ((c : Thread nD τ).loc b))

/-- The operand array as the call finds it. -/
abbrev operand (c : Dev nD) : Vec Ideal S100000x64 .f32 := V c main_arg0
/-- The weight array as the call finds it. -/
abbrev weight (c : Dev nD) : Vec Ideal S64x64 .f32 := V c main_arg3

theorem origin : (![0, 0] : Fin 2 → Nat) = fun _ => 0 := funext fun a => by fin_cases a <;> rfl

/-- The index maps over the ten grid points: the operand's tile moves with the output's along the rows and sits
    at column block 0; the weight's block is always (0, 0); the output's row block is below 10. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block 0 … 9 is some grid point's. -/
theorem idx_onto : ∀ q : Fin 10, ∃ t : Fin cfg0.N, win0_2.index t = ![q.val, 0] :=
  (by decide +kernel : ∀ q : Fin 10, ∃ t : Fin grid0.N, win0_2.index t = ![q.val, 0])

/-- Entry (a, k) of point t's operand tile is entry (10000·t + a, k) of the operand array: the row the output's
    entry (a, j) of the same point lands on. -/
theorem tile_read (c : Dev nD) (t : Fin cfg0.N) (j : S10000x64.Idx) (k : Fin 64) :
    iblk0 V c 0 t (tileLhs j k) = operand V c (lhsAt (((cfg0.win 2).blk t).view.emb j) k) := by
  obtain ⟨e0, e1, e2, e3, e4, e5⟩ := idx_facts t
  show V c main_arg0 (((cfg0.win 0).blk t).view.emb (tileLhs j k)) = _
  refine congrArg (V c main_arg0) ?_
  funext a; apply Fin.ext
  match a with
  | ⟨0, _⟩ => show win0_0.index t (0 : Fin 2) * 10000 + 1 * (j 0).val = win0_2.index t (0 : Fin 2) * 10000 + 1 * (j 0).val; omega
  | ⟨1, _⟩ => show win0_0.index t (1 : Fin 2) * 64 + 1 * k.val = k.val; omega

/-- Entry (k, j) of point t's weight block is entry (k, j) of the weight array. -/
theorem weight_read (c : Dev nD) (t : Fin cfg0.N) (j : S10000x64.Idx) (k : Fin 64) :
    iblk0 V c 1 t (tileRhs j k) = weight V c (rhsAt (((cfg0.win 2).blk t).view.emb j) k) := by
  obtain ⟨e0, e1, e2, e3, e4, e5⟩ := idx_facts t
  show V c main_arg3 (((cfg0.win 1).blk t).view.emb (tileRhs j k)) = _
  refine congrArg (V c main_arg3) ?_
  funext a; apply Fin.ext
  match a with
  | ⟨0, _⟩ => show win0_1.index t (0 : Fin 2) * 64 + 1 * k.val = k.val; omega
  | ⟨1, _⟩ => show win0_1.index t (1 : Fin 2) * 64 + 1 * (j 1).val = win0_2.index t (1 : Fin 2) * 64 + 1 * (j 1).val; omega

/-- What point t writes back is block t of the dense layer of the arrays the call finds. -/
theorem flushed_eq (c : Dev nD) (t : Fin cfg0.N) :
    (dat0 V c).flushed 2 t = ((cfg0.win 2).blk t).view.read (Elt Ideal) (linear (operand V c) (weight V c)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  funext j
  show k0_pay1 (F := Ideal) (iblk0 V c 0 t) (iblk0 V c 1 t) j
    = ∑ k : Fin 64, operand V c (lhsAt (((cfg0.win 2).blk t).view.emb j) k) * weight V c (rhsAt (((cfg0.win 2).blk t).view.emb j) k)
  refine (pay0_apply (iblk0 V c 0 t) (iblk0 V c 1 t) j).trans ?_
  refine Finset.sum_congr rfl fun k _ => ?_
  rw [tile_read V c t j k, weight_read V c t j k]

/-- An entry of the output array is in point t's block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every entry of the output array is in the block of the point that owns its row: row r belongs to block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call its output array is the dense layer of the operand and weight arrays it found. -/
theorem arr (c : Dev nD) : (dat0 V c).arrAt 2 cfg0.N = linear (operand V c) (weight V c) :=
  (dat0 V c).arrAt_eq_of_cover 2 (linear (operand V c) (weight V c)) (fun t _ => flushed_eq V c t) cover

end Cert.KernelIdeal.Region0

end
-- ==== Proof.Region1.lean ====
/-
  What the second pallas_call leaves in its output array.

  The call runs over ten grid points. Point t reads rows 10000·t … 10000·t + 9999 of its [100000, 64] operand and the
  whole [64, 64] weight, and writes back the same rows of the output. Each written-back tile is the corresponding
  block of `linear h w` (the dense layer of the operand array h and the weight w as the call finds them): entry
  (a, j) of the tile is Σ_k tile[a, k] · w[k, j], and tile[a, k] is h[10000·t + a, k]. The ten tiles cover every row,
  so after the call the output array IS `linear h w`.
-/
import proofs.«163716_j4020089389576_1_alg».proof.Proof.Gen.KernelIdeal.Frame
import proofs.«163716_j4020089389576_1_alg».proof.Proof.Dense

set_option maxRecDepth 16384

noncomputable section

namespace Cert.KernelIdeal.Region1

open Cert.KernelIdeal Cert.KernelIdeal.Gen Cert.KernelIdeal.Dense
open Idealize.ShloMosaic Idealize.ShloMosaic.TcCoe Idealize.SL.Sem
open Idealize.ShloMosaic.Pipeline (Dat Cfg Window)

-- the buffer contents when the call is entered
variable (V : (c : Dev nD) → (b : Ref sig .tc) → Buf (Elt Ideal) ((c : Thread nD τ).loc b))

/-- The operand array as the call finds it. -/
abbrev operand (c : Dev nD) : Vec Ideal S100000x64 .f32 := V c main_v48
/-- The weight array as the call finds it. -/
abbrev weight (c : Dev nD) : Vec Ideal S64x64 .f32 := V c main_arg5

theorem origin : (![0, 0] : Fin 2 → Nat) = fun _ => 0 := funext fun a => by fin_cases a <;> rfl

/-- The index maps over the ten grid points: the operand's tile moves with the output's along the rows and sits
    at column block 0; the weight's block is always (0, 0); the output's row block is below 10. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block 0 … 9 is some grid point's. -/
theorem idx_onto : ∀ q : Fin 10, ∃ t : Fin cfg1.N, win1_2.index t = ![q.val, 0] :=
  (by decide +kernel : ∀ q : Fin 10, ∃ t : Fin grid1.N, win1_2.index t = ![q.val, 0])

/-- Entry (a, k) of point t's operand tile is entry (10000·t + a, k) of the operand array: the row the output's
    entry (a, j) of the same point lands on. -/
theorem tile_read (c : Dev nD) (t : Fin cfg1.N) (j : S10000x64.Idx) (k : Fin 64) :
    iblk1 V c 0 t (tileLhs j k) = operand V c (lhsAt (((cfg1.win 2).blk t).view.emb j) k) := by
  obtain ⟨e0, e1, e2, e3, e4, e5⟩ := idx_facts t
  show V c main_v48 (((cfg1.win 0).blk t).view.emb (tileLhs j k)) = _
  refine congrArg (V c main_v48) ?_
  funext a; apply Fin.ext
  match a with
  | ⟨0, _⟩ => show win1_0.index t (0 : Fin 2) * 10000 + 1 * (j 0).val = win1_2.index t (0 : Fin 2) * 10000 + 1 * (j 0).val; omega
  | ⟨1, _⟩ => show win1_0.index t (1 : Fin 2) * 64 + 1 * k.val = k.val; omega

/-- Entry (k, j) of point t's weight block is entry (k, j) of the weight array. -/
theorem weight_read (c : Dev nD) (t : Fin cfg1.N) (j : S10000x64.Idx) (k : Fin 64) :
    iblk1 V c 1 t (tileRhs j k) = weight V c (rhsAt (((cfg1.win 2).blk t).view.emb j) k) := by
  obtain ⟨e0, e1, e2, e3, e4, e5⟩ := idx_facts t
  show V c main_arg5 (((cfg1.win 1).blk t).view.emb (tileRhs j k)) = _
  refine congrArg (V c main_arg5) ?_
  funext a; apply Fin.ext
  match a with
  | ⟨0, _⟩ => show win1_1.index t (0 : Fin 2) * 64 + 1 * k.val = k.val; omega
  | ⟨1, _⟩ => show win1_1.index t (1 : Fin 2) * 64 + 1 * (j 1).val = win1_2.index t (1 : Fin 2) * 64 + 1 * (j 1).val; omega

/-- What point t writes back is block t of the dense layer of the arrays the call finds. -/
theorem flushed_eq (c : Dev nD) (t : Fin cfg1.N) :
    (dat1 V c).flushed 2 t = ((cfg1.win 2).blk t).view.read (Elt Ideal) (linear (operand V c) (weight V c)) := by
  show (cfg1.win 2).cut (grid1.coords t) ((dat1 V c).after 2 t) = _
  rw [after1_2]
  unfold out1_2
  rw [View.canon_unit_zero origin]
  simp only [View.ld_unit_zero (S := S10000x64) origin, View.ld_unit_zero (S := S64x64) origin]
  funext j
  show k1_pay1 (F := Ideal) (iblk1 V c 0 t) (iblk1 V c 1 t) j
    = ∑ k : Fin 64, operand V c (lhsAt (((cfg1.win 2).blk t).view.emb j) k) * weight V c (rhsAt (((cfg1.win 2).blk t).view.emb j) k)
  refine (pay1_apply (iblk1 V c 0 t) (iblk1 V c 1 t) j).trans ?_
  refine Finset.sum_congr rfl fun k _ => ?_
  rw [tile_read V c t j k, weight_read V c t j k]

/-- An entry of the output array is in point t's block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Every entry of the output array is in the block of the point that owns its row: row r belongs to block r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the call its output array is the dense layer of the operand and weight arrays it found. -/
theorem arr (c : Dev nD) : (dat1 V c).arrAt 2 cfg1.N = linear (operand V c) (weight V c) :=
  (dat1 V c).arrAt_eq_of_cover 2 (linear (operand V c) (weight V c)) (fun t _ => flushed_eq V c t) cover

end Cert.KernelIdeal.Region1

end
-- ==== Proof.Region2.lean ====
/-
  What the third pallas_call leaves in its output array.

  The call runs over ten grid points. Point t reads rows 10000·t … 10000·t + 9999 of its [100000, 64] operand and the
  whole [64, 64] weight, and writes back the same rows of the output. Each written-back tile is the corresponding
  block of `linear h w` (the dense layer of the operand array h and the weight w as the call finds them): entry
  (a, j) of the tile is Σ_k tile[a, k] · w[k, j], and tile[a, k] is h[10000·t + a, k]. The ten tiles cover every row,
  so after the call the output array IS `linear h w`.
-/
import proofs.«163716_j4020089389576_1_alg».proof.Proof.Gen.KernelIdeal.Frame
import proofs.«163716_j4020089389576_1_alg».proof.Proof.Dense

set_option maxRecDepth 16384

noncomputable section

namespace Cert.KernelIdeal.Region2

open Cert.KernelIdeal Cert.KernelIdeal.Gen Cert.KernelIdeal.Dense
open Idealize.ShloMosaic Idealize.ShloMosaic.TcCoe Idealize.SL.Sem
open Idealize.ShloMosaic.Pipeline (Dat Cfg Window)

-- the buffer contents when the call is entered
variable (V : (c : Dev nD) → (b : Ref sig .tc) → Buf (Elt Ideal) ((c : Thread nD τ).loc b))

/-- The operand array as the call finds it. -/
abbrev operand (c : Dev nD) : Vec Ideal S100000x64 .f32 := V c main_v66
/-- The weight array as the call finds it. -/
abbrev weight (c : Dev nD) : Vec Ideal S64x64 .f32 := V c main_arg7

theorem origin : (![0, 0] : Fin 2 → Nat) = fun _ => 0 := funext fun a => by fin_cases a <;> rfl

/-- The index maps over the ten grid points: the operand's tile moves with the output's along the rows and sits
    at column block 0; the weight's block is always (0, 0); the output's row block is below 10. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block 0 … 9 is some grid point's. -/
theorem idx_onto : ∀ q : Fin 10, ∃ t : Fin cfg2.N, win2_2.index t = ![q.val, 0] :=
  (by decide +kernel : ∀ q : Fin 10, ∃ t : Fin grid2.N, win2_2.index t = ![q.val, 0])

/-- Entry (a, k) of point t's operand tile is entry (10000·t + a, k) of the operand array: the row the output's
    entry (a, j) of the same point lands on. -/
theorem tile_read (c : Dev nD) (t : Fin cfg2.N) (j : S10000x64.Idx) (k : Fin 64) :
    iblk2 V c 0 t (tileLhs j k) = operand V c (lhsAt (((cfg2.win 2).blk t).view.emb j) k) := by
  obtain ⟨e0, e1, e2, e3, e4, e5⟩ := idx_facts t
  show V c main_v66 (((cfg2.win 0).blk t).view.emb (tileLhs j k)) = _
  refine congrArg (V c main_v66) ?_
  funext a; apply Fin.ext
  match a with
  | ⟨0, _⟩ => show win2_0.index t (0 : Fin 2) * 10000 + 1 * (j 0).val = win2_2.index t (0 : Fin 2) * 10000 + 1 * (j 0).val; omega
  | ⟨1, _⟩ => show win2_0.index t (1 : Fin 2) * 64 + 1 * k.val = k.val; omega

/-- Entry (k, j) of point t's weight block is entry (k, j) of the weight array. -/
theorem weight_read (c : Dev nD) (t : Fin cfg2.N) (j : S10000x64.Idx) (k : Fin 64) :
    iblk2 V c 1 t (tileRhs j k) = weight V c (rhsAt (((cfg2.win 2).blk t).view.emb j) k) := by
  obtain ⟨e0, e1, e2, e3, e4, e5⟩ := idx_facts t
  show V c main_arg7 (((cfg2.win 1).blk t).view.emb (tileRhs j k)) = _
  refine congrArg (V c main_arg7) ?_
  funext a; apply Fin.ext
  match a with
  | ⟨0, _⟩ => show win2_1.index t (0 : Fin 2) * 64 + 1 * k.val = k.val; omega
  | ⟨1, _⟩ => show win2_1.index t (1 : Fin 2) * 64 + 1 * (j 1).val = win2_2.index t (1 : Fin 2) * 64 + 1 * (j 1).val; omega

/-- What point t writes back is block t of the dense layer of the arrays the call finds. -/
theorem flushed_eq (c : Dev nD) (t : Fin cfg2.N) :
    (dat2 V c).flushed 2 t = ((cfg2.win 2).blk t).view.read (Elt Ideal) (linear (operand V c) (weight V c)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x64) origin]
  funext j
  show k2_pay1 (F := Ideal) (iblk2 V c 0 t) (iblk2 V c 1 t) j
    = ∑ k : Fin 64, operand V c (lhsAt (((cfg2.win 2).blk t).view.emb j) k) * weight V c (rhsAt (((cfg2.win 2).blk t).view.emb j) k)
  refine (pay2_apply (iblk2 V c 0 t) (iblk2 V c 1 t) j).trans ?_
  refine Finset.sum_congr rfl fun k _ => ?_
  rw [tile_read V c t j k, weight_read V c t j k]

/-- An entry of the output array is in point t's block iff each coordinate is in the block's range. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v67).slice (win2_2.rect t)).set ↔ _
  rw [View.set_slice_whole, Rect.mem_set_unit]
  exact Iff.rfl

/-- Every entry of the output array is in the block of the point that owns its row: row r belongs to block r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the call its output array is the dense layer of the operand and weight arrays it found. -/
theorem arr (c : Dev nD) : (dat2 V c).arrAt 2 cfg2.N = linear (operand V c) (weight V c) :=
  (dat2 V c).arrAt_eq_of_cover 2 (linear (operand V c) (weight V c)) (fun t _ => flushed_eq V c t) cover

end Cert.KernelIdeal.Region2

end
-- ==== Proof.HostStages.lean ====
/-
  The host stretches of the kernel's program, read against the reference's stages.

  Outside its three pallas_calls the kernel's @main runs the same host operations as the reference, literal by literal:
  the edge lists with self loops (`v3`, `v6`), the symmetric degree normalisation (`v30`), and after each dense layer
  the gather of source rows, the scaling, the scatter-add into destination rows, the bias and (for the first two
  layers) the maximum with zero; at the end the per-graph mean. Each lemma here takes ANY buffer contents `W` at the
  entry of a stretch and says what one buffer holds after the stretch, as the reference's stage function of the same
  name's meaning (`val_main_…`), given that the buffers the stretch reads hold the earlier stages. The float family is
  left abstract: nothing here depends on what a float is.
-/
import proofs.«163716_j4020089389576_1_alg».proof.Proof.Gen.KernelIdeal.Launch
import proofs.«163716_j4020089389576_1_alg».proof.Proof.RefRead
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v12 val_main_v13 val_main_cst_2 val_main_v14 val_main_v30
  val_main_v31 val_main_v47 val_main_v48 val_main_v64 val_main_v65 val_main_v92)

variable {F : FTy → Type} [FloatOps F]
variable (W : Valuation τ sig (Elt F))
variable {x0 : (⟨S100000x64, .f32⟩ : BufTy).Contents (Elt F)} {x1 : (⟨S2x1600000, .i32⟩ : BufTy).Contents (Elt F)}
  {x2 : (⟨S100000, .i32⟩ : BufTy).Contents (Elt F)} {x3 : (⟨S64x64, .f32⟩ : BufTy).Contents (Elt F)}
  {x4 : (⟨S64, .f32⟩ : BufTy).Contents (Elt F)} {x5 : (⟨S64x64, .f32⟩ : BufTy).Contents (Elt F)}
  {x6 : (⟨S64, .f32⟩ : BufTy).Contents (Elt F)} {x7 : (⟨S64x64, .f32⟩ : BufTy).Contents (Elt F)}
  {x8 : (⟨S64, .f32⟩ : BufTy).Contents (Elt F)}

/-! ## The first stretch: edge lists with self loops, degrees, their reciprocal square roots -/

/-- Sources: the first row of the edge index followed by 0 … 99999. -/
theorem first_v3 (h1 : W (Proc.devRef .tc main_arg1) = x1) :
    after hostOps0 W (Proc.devRef .tc main_v3) = val_main_v3 (F := F) x1 := by
  subst h1; after_results <;> rfl
/-- Destinations: the second row of the edge index followed by 0 … 99999. -/
theorem first_v6 (h1 : W (Proc.devRef .tc main_arg1) = x1) :
    after hostOps0 W (Proc.devRef .tc main_v6) = val_main_v6 (F := F) x1 := by
  subst h1; after_results <;> rfl
/-- Which nodes have positive degree. -/
theorem first_v12 (h1 : W (Proc.devRef .tc main_arg1) = x1) :
    after hostOps0 W (Proc.devRef .tc main_v12) = val_main_v12 (F := F) x1 := by
  subst h1; after_results <;> rfl
/-- The reciprocal square root of the degrees. -/
theorem first_v13 (h1 : W (Proc.devRef .tc main_arg1) = x1) :
    after hostOps0 W (Proc.devRef .tc main_v13) = val_main_v13 (F := F) x1 := by
  subst h1; after_results <;> rfl
/-- The zero that replaces it where the degree is not positive. -/
theorem first_cst_2 : after hostOps0 W (Proc.devRef .tc main_cst_2) = val_main_cst_2 (F := F) := by
  after_results <;> rfl

/-! ## The second stretch: the select that zeroes the reciprocal square root where the degree is not positive -/

theorem second_v14 (h12 : W (Proc.devRef .tc main_v12) = val_main_v12 (F := F) x1)
    (h13 : W (Proc.devRef .tc main_v13) = val_main_v13 (F := F) x1)
    (hc : W (Proc.devRef .tc main_cst_2) = val_main_cst_2 (F := F)) :
    after hostOps0_1 W (Proc.devRef .tc main_v14) = val_main_v14 (F := F) x1 := by
  after_results
  rw [h12, h13, hc]
  rfl

/-! ## The third stretch: the edge weights, dinv[src] · dinv[dst], as a column -/

theorem third_v30 (h3 : W (Proc.devRef .tc main_v3) = val_main_v3 (F := F) x1)
    (h6 : W (Proc.devRef .tc main_v6) = val_main_v6 (F := F) x1)
    (h14 : W (Proc.devRef .tc main_v14) = val_main_v14 (F := F) x1) :
    after hostOps0_2 W (Proc.devRef .tc main_v30) = val_main_v30 (F := F) x1 := by
  after_results_simp
  rw [h3, h6, h14]
  rfl

/-! ## After each dense layer: gather the source rows, scale, scatter-add into the destination rows, add the bias -/

/-- The first layer's host part, with the maximum with zero. -/
theorem layer1 (h31 : W (Proc.devRef .tc main_v31) = val_main_v31 (F := F) x0 x3)
    (h3 : W (Proc.devRef .tc main_v3) = val_main_v3 (F := F) x1)
    (h6 : W (Proc.devRef .tc main_v6) = val_main_v6 (F := F) x1)
    (h30 : W (Proc.devRef .tc main_v30) = val_main_v30 (F := F) x1)
    (h4 : W (Proc.devRef .tc main_arg4) = x4) :
    after hostOps1 W (Proc.devRef .tc main_v48) = val_main_v47 (F := F) x0 x1 x3 x4 := by
  after_results_simp
  rw [h31, h3, h6, h30, h4]
  rfl

/-- The second layer's host part, with the maximum with zero. -/
theorem layer2 (h49 : W (Proc.devRef .tc main_v49) = val_main_v48 (F := F) x0 x1 x3 x4 x5)
    (h3 : W (Proc.devRef .tc main_v3) = val_main_v3 (F := F) x1)
    (h6 : W (Proc.devRef .tc main_v6) = val_main_v6 (F := F) x1)
    (h30 : W (Proc.devRef .tc main_v30) = val_main_v30 (F := F) x1)
    (h6' : W (Proc.devRef .tc main_arg6) = x6) :
    after hostOps2 W (Proc.devRef .tc main_v66) = val_main_v64 (F := F) x0 x1 x3 x4 x5 x6 := by
  after_results_simp
  rw [h49, h3, h6, h30, h6']
  rfl

/-- The third layer's host part (no maximum) and the mean over each graph's nodes. -/
theorem pool (h67 : W (Proc.devRef .tc main_v67) = val_main_v65 (F := F) x0 x1 x3 x4 x5 x6 x7)
    (h3 : W (Proc.devRef .tc main_v3) = val_main_v3 (F := F) x1)
    (h6 : W (Proc.devRef .tc main_v6) = val_main_v6 (F := F) x1)
    (h30 : W (Proc.devRef .tc main_v30) = val_main_v30 (F := F) x1)
    (h8 : W (Proc.devRef .tc main_arg8) = x8)
    (h2 : W (Proc.devRef .tc main_arg2) = x2) :
    after hostOps3 W (Proc.devRef .tc main_v94) = val_main_v92 (F := F) x0 x1 x2 x3 x4 x5 x6 x7 x8 := by
  after_results_simp
  rw [h67, h3, h6, h30, h8, h2]
  rfl

/-! ## What a stretch leaves alone

No host operation writes an argument array, and once made, the edge lists and the edge weights are only read. -/

/-- `W'` holds the nine argument arrays as `W` does. -/
structure KeepsArgs (W W' : Valuation τ sig (Elt F)) : Prop where
  a0 : W' (Proc.devRef .tc main_arg0) = W (Proc.devRef .tc main_arg0)
  a1 : W' (Proc.devRef .tc main_arg1) = W (Proc.devRef .tc main_arg1)
  a2 : W' (Proc.devRef .tc main_arg2) = W (Proc.devRef .tc main_arg2)
  a3 : W' (Proc.devRef .tc main_arg3) = W (Proc.devRef .tc main_arg3)
  a4 : W' (Proc.devRef .tc main_arg4) = W (Proc.devRef .tc main_arg4)
  a5 : W' (Proc.devRef .tc main_arg5) = W (Proc.devRef .tc main_arg5)
  a6 : W' (Proc.devRef .tc main_arg6) = W (Proc.devRef .tc main_arg6)
  a7 : W' (Proc.devRef .tc main_arg7) = W (Proc.devRef .tc main_arg7)
  a8 : W' (Proc.devRef .tc main_arg8) = W (Proc.devRef .tc main_arg8)

/-- `W'` holds the edge lists and the edge weights as `W` does. -/
structure KeepsEdges (W W' : Valuation τ sig (Elt F)) : Prop where
  v3 : W' (Proc.devRef .tc main_v3) = W (Proc.devRef .tc main_v3)
  v6 : W' (Proc.devRef .tc main_v6) = W (Proc.devRef .tc main_v6)
  v30 : W' (Proc.devRef .tc main_v30) = W (Proc.devRef .tc main_v30)

theorem args_first : KeepsArgs W (after hostOps0 W) :=
  ⟨by after_results_simp <;> rfl, by after_results_simp <;> rfl, by after_results_simp <;> rfl, by after_results_simp <;> rfl, by after_results_simp <;> rfl,
   by after_results_simp <;> rfl, by after_results_simp <;> rfl, by after_results_simp <;> rfl, by after_results_simp <;> rfl⟩
theorem args_second : KeepsArgs W (after hostOps0_1 W) :=
  ⟨by after_results_simp <;> rfl, by after_results_simp <;> rfl, by after_results_simp <;> rfl, by after_results_simp <;> rfl, by after_results_simp <;> rfl,
   by after_results_simp <;> rfl, by after_results_simp <;> rfl, by after_results_simp <;> rfl, by after_results_simp <;> rfl⟩
theorem args_third : KeepsArgs W (after hostOps0_2 W) :=
  ⟨by after_results_simp <;> rfl, by after_results_simp <;> rfl, by after_results_simp <;> rfl, by after_results_simp <;> rfl, by after_results_simp <;> rfl,
   by after_results_simp <;> rfl, by after_results_simp <;> rfl, by after_results_simp <;> rfl, by after_results_simp <;> rfl⟩
theorem args_layer1 : KeepsArgs W (after hostOps1 W) :=
  ⟨by after_results_simp <;> rfl, by after_results_simp <;> rfl, by after_results_simp <;> rfl, by after_results_simp <;> rfl, by after_results_simp <;> rfl,
   by after_results_simp <;> rfl, by after_results_simp <;> rfl, by after_results_simp <;> rfl, by after_results_simp <;> rfl⟩
theorem args_layer2 : KeepsArgs W (after hostOps2 W) :=
  ⟨by after_results_simp <;> rfl, by after_results_simp <;> rfl, by after_results_simp <;> rfl, by after_results_simp <;> rfl, by after_results_simp <;> rfl,
   by after_results_simp <;> rfl, by after_results_simp <;> rfl, by after_results_simp <;> rfl, by after_results_simp <;> rfl⟩

/-- The select's stretch leaves the edge lists alone. -/
theorem second_v3 : after hostOps0_1 W (Proc.devRef .tc main_v3) = W (Proc.devRef .tc main_v3) := by after_results_simp <;> rfl
theorem second_v6 : after hostOps0_1 W (Proc.devRef .tc main_v6) = W (Proc.devRef .tc main_v6) := by after_results_simp <;> rfl
/-- So does the stretch that makes the edge weights. -/
theorem third_v3 : after hostOps0_2 W (Proc.devRef .tc main_v3) = W (Proc.devRef .tc main_v3) := by after_results_simp <;> rfl
theorem third_v6 : after hostOps0_2 W (Proc.devRef .tc main_v6) = W (Proc.devRef .tc main_v6) := by after_results_simp <;> rfl

theorem edges_layer1 : KeepsEdges W (after hostOps1 W) :=
  ⟨by after_results_simp <;> rfl, by after_results_simp <;> rfl, by after_results_simp <;> rfl⟩
theorem edges_layer2 : KeepsEdges W (after hostOps2 W) :=
  ⟨by after_results_simp <;> rfl, by after_results_simp <;> rfl, by after_results_simp <;> rfl⟩

end Cert.KernelIdeal.Stages

end
-- ==== Proof.KValue.lean ====
/-
  The kernel's result, as the reference's function of the launch contents.

  The kernel's @main is nine segments: three host stretches, then three times a pallas_call followed by a host
  stretch. The contents of the buffers at each boundary are named by the frame (`W0` … `W9`). Walking them in order:
  the first three stretches make the edge lists and the edge weights, which are the reference's stages of the edge
  index; each pallas_call leaves the dense layer of its operand and its weight in its output array, which is the
  reference's matrix product of the same two arrays; each later stretch is the reference's stage of the same
  operations. So the last boundary holds, in the result buffer, the reference's last stage of the nine launch arrays.
-/
import proofs.«163716_j4020089389576_1_alg».proof.Proof.Gen.KernelIdeal.Frame
import proofs.«163716_j4020089389576_1_alg».proof.Proof.Region0
import proofs.«163716_j4020089389576_1_alg».proof.Proof.Region1
import proofs.«163716_j4020089389576_1_alg».proof.Proof.Region2
import proofs.«163716_j4020089389576_1_alg».proof.Proof.HostStages

set_option maxRecDepth 16384

noncomputable section

namespace Cert.KernelIdeal.Result

open Cert.KernelIdeal Cert.KernelIdeal.Gen Cert.KernelIdeal.Dense Cert.KernelIdeal.Stages
open Idealize.ShloMosaic Idealize.ShloMosaic.TcCoe Idealize.SL.Sem Idealize.ShloMosaic.StableHlo
open Cert.ReferenceIdeal.ReadP (val_main_v3 val_main_v6 val_main_v12 val_main_v13 val_main_cst_2 val_main_v14 val_main_v30
  val_main_v31 val_main_v47 val_main_v48 val_main_v64 val_main_v65 val_main_v92)

/-- The reference's matrix product, entry by entry, is the dense layer. -/
theorem ref_linear (x : Vec Ideal S100000x64 .f32) (w : Vec Ideal S64x64 .f32) :
    val_main_v31 (F := Ideal) x w = linear x w :=
  funext fun i => (Cert.ReferenceIdeal.ReadP.val_main_v31_apply x w i).trans rfl

variable (m : (ℓ : Loc nD τ sig) → Buf (Elt Ideal) ℓ) (ρ : Dev nD → PrngReg) (c : Dev nD)

/-- The nine arrays at launch. -/
abbrev in0 : (⟨S100000x64, .f32⟩ : BufTy).Contents (Elt Ideal) := m ((c : Thread nD τ).loc main_arg0)
abbrev in1 : (⟨S2x1600000, .i32⟩ : BufTy).Contents (Elt Ideal) := m ((c : Thread nD τ).loc main_arg1)
abbrev in2 : (⟨S100000, .i32⟩ : BufTy).Contents (Elt Ideal) := m ((c : Thread nD τ).loc main_arg2)
abbrev in3 : (⟨S64x64, .f32⟩ : BufTy).Contents (Elt Ideal) := m ((c : Thread nD τ).loc main_arg3)
abbrev in4 : (⟨S64, .f32⟩ : BufTy).Contents (Elt Ideal) := m ((c : Thread nD τ).loc main_arg4)
abbrev in5 : (⟨S64x64, .f32⟩ : BufTy).Contents (Elt Ideal) := m ((c : Thread nD τ).loc main_arg5)
abbrev in6 : (⟨S64, .f32⟩ : BufTy).Contents (Elt Ideal) := m ((c : Thread nD τ).loc main_arg6)
abbrev in7 : (⟨S64x64, .f32⟩ : BufTy).Contents (Elt Ideal) := m ((c : Thread nD τ).loc main_arg7)
abbrev in8 : (⟨S64, .f32⟩ : BufTy).Contents (Elt Ideal) := m ((c : Thread nD τ).loc main_arg8)

/-- A boundary's contents hold the nine argument arrays as launched. -/
structure Inputs (W : Valuation τ sig (Elt Ideal)) : Prop where
  a0 : W (Proc.devRef .tc main_arg0) = in0 m c
  a1 : W (Proc.devRef .tc main_arg1) = in1 m c
  a2 : W (Proc.devRef .tc main_arg2) = in2 m c
  a3 : W (Proc.devRef .tc main_arg3) = in3 m c
  a4 : W (Proc.devRef .tc main_arg4) = in4 m c
  a5 : W (Proc.devRef .tc main_arg5) = in5 m c
  a6 : W (Proc.devRef .tc main_arg6) = in6 m c
  a7 : W (Proc.devRef .tc main_arg7) = in7 m c
  a8 : W (Proc.devRef .tc main_arg8) = in8 m c

/-- A boundary's contents hold the reference's edge lists and edge weights of the launched edge index. -/
structure Edges (W : Valuation τ sig (Elt Ideal)) : Prop where
  v3 : W (Proc.devRef .tc main_v3) = val_main_v3 (F := Ideal) (in1 m c)
  v6 : W (Proc.devRef .tc main_v6) = val_main_v6 (F := Ideal) (in1 m c)
  v30 : W (Proc.devRef .tc main_v30) = val_main_v30 (F := Ideal) (in1 m c)

variable {m c}

theorem Inputs.keep {W W' : Valuation τ sig (Elt Ideal)} (h : Inputs m c W) (k : KeepsArgs W W') : Inputs m c W' :=
  ⟨k.a0.trans h.a0, k.a1.trans h.a1, k.a2.trans h.a2, k.a3.trans h.a3, k.a4.trans h.a4, k.a5.trans h.a5, k.a6.trans h.a6,
   k.a7.trans h.a7, k.a8.trans h.a8⟩
theorem Edges.keep {W W' : Valuation τ sig (Elt Ideal)} (h : Edges m c W) (k : KeepsEdges W W') : Edges m c W' :=
  ⟨k.v3.trans h.v3, k.v6.trans h.v6, k.v30.trans h.v30⟩

variable (m c)

/-! ## A pallas_call changes only its output array: its two input arrays end as it found them, every other buffer is untouched -/

theorem args_call0 : KeepsArgs (W3 m ρ c) (W4 m ρ c) :=
  ⟨(W4_arr m ρ c 0).trans (((dat0 (V3 m ρ) c).arrAt_in 0 rfl _).trans (A_eq0 (V3 m ρ) c 0)), W4_of_ne m ρ c main_arg1 (by decide), W4_of_ne m ρ c main_arg2 (by decide),
   (W4_arr m ρ c 1).trans (((dat0 (V3 m ρ) c).arrAt_in 1 rfl _).trans (A_eq0 (V3 m ρ) c 1)), W4_of_ne m ρ c main_arg4 (by decide), W4_of_ne m ρ c main_arg5 (by decide),
   W4_of_ne m ρ c main_arg6 (by decide), W4_of_ne m ρ c main_arg7 (by decide), W4_of_ne m ρ c main_arg8 (by decide)⟩
theorem edges_call0 : KeepsEdges (W3 m ρ c) (W4 m ρ c) :=
  ⟨W4_of_ne m ρ c main_v3 (by decide), W4_of_ne m ρ c main_v6 (by decide), W4_of_ne m ρ c main_v30 (by decide)⟩
theorem args_call1 : KeepsArgs (W5 m ρ c) (W6 m ρ c) :=
  ⟨W6_of_ne m ρ c main_arg0 (by decide), W6_of_ne m ρ c main_arg1 (by decide), W6_of_ne m ρ c main_arg2 (by decide),
   W6_of_ne m ρ c main_arg3 (by decide), W6_of_ne m ρ c main_arg4 (by decide), (W6_arr m ρ c 1).trans (((dat1 (V5 m ρ) c).arrAt_in 1 rfl _).trans (A_eq1 (V5 m ρ) c 1)),
   W6_of_ne m ρ c main_arg6 (by decide), W6_of_ne m ρ c main_arg7 (by decide), W6_of_ne m ρ c main_arg8 (by decide)⟩
theorem edges_call1 : KeepsEdges (W5 m ρ c) (W6 m ρ c) :=
  ⟨W6_of_ne m ρ c main_v3 (by decide), W6_of_ne m ρ c main_v6 (by decide), W6_of_ne m ρ c main_v30 (by decide)⟩
theorem args_call2 : KeepsArgs (W7 m ρ c) (W8 m ρ c) :=
  ⟨W8_of_ne m ρ c main_arg0 (by decide), W8_of_ne m ρ c main_arg1 (by decide), W8_of_ne m ρ c main_arg2 (by decide),
   W8_of_ne m ρ c main_arg3 (by decide), W8_of_ne m ρ c main_arg4 (by decide), W8_of_ne m ρ c main_arg5 (by decide),
   W8_of_ne m ρ c main_arg6 (by decide), (W8_arr m ρ c 1).trans (((dat2 (V7 m ρ) c).arrAt_in 1 rfl _).trans (A_eq2 (V7 m ρ) c 1)), W8_of_ne m ρ c main_arg8 (by decide)⟩
theorem edges_call2 : KeepsEdges (W7 m ρ c) (W8 m ρ c) :=
  ⟨W8_of_ne m ρ c main_v3 (by decide), W8_of_ne m ρ c main_v6 (by decide), W8_of_ne m ρ c main_v30 (by decide)⟩

/-! ## The boundaries, in order -/

theorem inputs0 : Inputs m c (W0 m ρ c) := ⟨rfl, rfl, rfl, rfl, rfl, rfl, rfl, rfl, rfl⟩
theorem inputs1 : Inputs m c (W1 m ρ c) := (inputs0 m ρ c).keep (args_first (W0 m ρ c))
theorem inputs2 : Inputs m c (W2 m ρ c) := (inputs1 m ρ c).keep (args_second (W1 m ρ c))
theorem inputs3 : Inputs m c (W3 m ρ c) := (inputs2 m ρ c).keep (args_third (W2 m ρ c))
theorem inputs4 : Inputs m c (W4 m ρ c) := (inputs3 m ρ c).keep (args_call0 m ρ c)
theorem inputs5 : Inputs m c (W5 m ρ c) := (inputs4 m ρ c).keep (args_layer1 (W4 m ρ c))
theorem inputs6 : Inputs m c (W6 m ρ c) := (inputs5 m ρ c).keep (args_call1 m ρ c)
theorem inputs7 : Inputs m c (W7 m ρ c) := (inputs6 m ρ c).keep (args_layer2 (W6 m ρ c))
theorem inputs8 : Inputs m c (W8 m ρ c) := (inputs7 m ρ c).keep (args_call2 m ρ c)

/-- At the first pallas_call's entry the edge lists and weights are the reference's. -/
theorem edges3 : Edges m c (W3 m ρ c) := by
  have h1 := (inputs0 m ρ c).a1
  have e3 := first_v3 (W0 m ρ c) h1
  have e6 := first_v6 (W0 m ρ c) h1
  have e14 := second_v14 (W1 m ρ c) (first_v12 (W0 m ρ c) h1) (first_v13 (W0 m ρ c) h1) (first_cst_2 (W0 m ρ c))
  have e3' := (second_v3 (W1 m ρ c)).trans e3
  have e6' := (second_v6 (W1 m ρ c)).trans e6
  exact ⟨(third_v3 (W2 m ρ c)).trans e3', (third_v6 (W2 m ρ c)).trans e6', third_v30 (W2 m ρ c) e3' e6' e14⟩
theorem edges4 : Edges m c (W4 m ρ c) := (edges3 m ρ c).keep (edges_call0 m ρ c)
theorem edges5 : Edges m c (W5 m ρ c) := (edges4 m ρ c).keep (edges_layer1 (W4 m ρ c))
theorem edges6 : Edges m c (W6 m ρ c) := (edges5 m ρ c).keep (edges_call1 m ρ c)
theorem edges7 : Edges m c (W7 m ρ c) := (edges6 m ρ c).keep (edges_layer2 (W6 m ρ c))
theorem edges8 : Edges m c (W8 m ρ c) := (edges7 m ρ c).keep (edges_call2 m ρ c)

/-- After the first pallas_call its output array is the reference's first matrix product. -/
theorem dense1 : W4 m ρ c (Proc.devRef .tc main_v31) = val_main_v31 (F := Ideal) (in0 m c) (in3 m c) := by
  refine (W4_arr m ρ c 2).trans ((Region0.arr (V3 m ρ) c).trans ?_)
  rw [ref_linear]
  show linear (W3 m ρ c (Proc.devRef .tc main_arg0)) (W3 m ρ c (Proc.devRef .tc main_arg3)) = _
  rw [(inputs3 m ρ c).a0, (inputs3 m ρ c).a3]

/-- After the first layer's host part: the reference's activations of layer one. -/
theorem hidden1 : W5 m ρ c (Proc.devRef .tc main_v48) = val_main_v47 (F := Ideal) (in0 m c) (in1 m c) (in3 m c) (in4 m c) :=
  layer1 (W4 m ρ c) (dense1 m ρ c) (edges4 m ρ c).v3 (edges4 m ρ c).v6 (edges4 m ρ c).v30 (inputs4 m ρ c).a4

/-- After the second pallas_call: the reference's second matrix product. -/
theorem dense2 : W6 m ρ c (Proc.devRef .tc main_v49) = val_main_v48 (F := Ideal) (in0 m c) (in1 m c) (in3 m c) (in4 m c) (in5 m c) := by
  refine (W6_arr m ρ c 2).trans ((Region1.arr (V5 m ρ) c).trans ?_)
  show linear (W5 m ρ c (Proc.devRef .tc main_v48)) (W5 m ρ c (Proc.devRef .tc main_arg5)) = _
  rw [hidden1 m ρ c, (inputs5 m ρ c).a5, ← ref_linear]
  rfl

/-- After the second layer's host part: the reference's activations of layer two. -/
theorem hidden2 : W7 m ρ c (Proc.devRef .tc main_v66) = val_main_v64 (F := Ideal) (in0 m c) (in1 m c) (in3 m c) (in4 m c) (in5 m c) (in6 m c) :=
  layer2 (W6 m ρ c) (dense2 m ρ c) (edges6 m ρ c).v3 (edges6 m ρ c).v6 (edges6 m ρ c).v30 (inputs6 m ρ c).a6

/-- After the third pallas_call: the reference's third matrix product. -/
theorem dense3 : W8 m ρ c (Proc.devRef .tc main_v67) = val_main_v65 (F := Ideal) (in0 m c) (in1 m c) (in3 m c) (in4 m c) (in5 m c) (in6 m c) (in7 m c) := by
  refine (W8_arr m ρ c 2).trans ((Region2.arr (V7 m ρ) c).trans ?_)
  show linear (W7 m ρ c (Proc.devRef .tc main_v66)) (W7 m ρ c (Proc.devRef .tc main_arg7)) = _
  rw [hidden2 m ρ c, (inputs7 m ρ c).a7, ← ref_linear]
  rfl

/-- THE RESULT: at the last boundary the result buffer holds the reference's last stage of the nine launch arrays. -/
theorem result : W9 m ρ c (Proc.devRef .tc main_v94)
    = val_main_v92 (F := Ideal) (in0 m c) (in1 m c) (in2 m c) (in3 m c) (in4 m c) (in5 m c) (in6 m c) (in7 m c) (in8 m c) :=
  pool (W8 m ρ c) (dense3 m ρ c) (edges8 m ρ c).v3 (edges8 m ρ c).v6 (edges8 m ρ c).v30 (inputs8 m ρ c).a8 (inputs8 m ρ c).a2

end Cert.KernelIdeal.Result

end
-- ==== Proof.lean ====
/-
  A three-layer graph convolution with mean pooling: Pallas kernel against jnp reference, over the extended reals.

  Both programs take node features x [100000, 64], an edge index [2, 1600000], a graph assignment [100000] and three
  weight/bias pairs. Both add self loops, weigh edge (s, d) by deg(s)^(-1/2) · deg(d)^(-1/2) (zero where a degree is
  not positive), and three times map h to segment_sum over destinations of (h · W)[source] · weight, plus the bias,
  with a maximum with zero after the first two; the node embeddings are then averaged per graph, the count bounded
  below by one. The two programs differ in ONE place, three times over: the reference forms h · W by one
  `dot_general` on the whole [100000, 64] array, the kernel by a pallas_call that walks ten tiles of 10000 rows, casts
  tile and weight to bf16, multiplies them on the MXU into a zero f32 accumulator and writes the tile back.

  On the extended reals the cast is the identity and the zero accumulator adds nothing, so entry (a, j) of a tile's
  product is Σ_k tile[a, k] · W[k, j] (Proof/Dense.lean); a tile's rows are the operand's rows 10000·t + a and the ten
  tiles cover the array, so the call leaves Σ_k h[r, k] · W[k, j] at every (r, j) (Proof/Region0–2.lean), which is the
  reference's `dot_general` read at an entry. Every other operation is the same function applied to the same values:
  the host stretches between the calls are read as the reference's own stage functions (Proof/HostStages.lean) and
  the boundaries are walked in order (Proof/KValue.lean). No law of arithmetic beyond 0 + s = s is used, so the
  finiteness of the inputs is never opened. The idealization rewrote nothing, so `preserves` is `True`.
-/
import proofs.«163716_j4020089389576_1_alg».proof.Defs
import proofs.«163716_j4020089389576_1_alg».proof.Proof.Gen.Kernel
import proofs.«163716_j4020089389576_1_alg».proof.Proof.Gen.Kernel.Skeleton
import proofs.«163716_j4020089389576_1_alg».proof.Proof.Gen.Kernel.Launch
import proofs.«163716_j4020089389576_1_alg».proof.Proof.Gen.Kernel.Points
import proofs.«163716_j4020089389576_1_alg».proof.Proof.Gen.Kernel.Frame
import proofs.«163716_j4020089389576_1_alg».proof.Proof.Gen.KernelIdeal
import proofs.«163716_j4020089389576_1_alg».proof.Proof.Gen.KernelIdeal.Skeleton
import proofs.«163716_j4020089389576_1_alg».proof.Proof.Gen.KernelIdeal.Launch
import proofs.«163716_j4020089389576_1_alg».proof.Proof.Gen.KernelIdeal.Points
import proofs.«163716_j4020089389576_1_alg».proof.Proof.Gen.KernelIdeal.Frame
import proofs.«163716_j4020089389576_1_alg».proof.Proof.Gen.ReferenceIdeal
import proofs.«163716_j4020089389576_1_alg».proof.Proof.Gen.Pre_finite_inputs
import proofs.«163716_j4020089389576_1_alg».proof.Proof.RefRun
import proofs.«163716_j4020089389576_1_alg».proof.Proof.RefRead
import proofs.«163716_j4020089389576_1_alg».proof.Proof.KRun
import proofs.«163716_j4020089389576_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_k : Cert.frame_Kernel := fun m ρ _ => Cert.Kernel.Gen.frame m ρ
/-- So does the kernel read on the extended reals. -/
theorem frame_ki : Cert.frame_KernelIdeal := fun m ρ _ => Cert.KernelIdeal.Gen.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Run from memories that agree on the nine arguments, both programs end with the reference's last stage of those
    arguments in the result: the kernel by the walk of its boundaries, the reference by its own run. -/
theorem algebraic : Cert.algebraic_KernelIdeal_ReferenceIdeal := by
  intro m ρ m' ρ' _ hagree
  refine ⟨fun c => Cert.KernelIdeal.Gen.W9 m ρ c (Proc.devRef .tc Cert.KernelIdeal.main_v94), Cert.KernelIdeal.Named.run_named m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8⟩ := hagree c
  rw [Cert.ReferenceIdeal.ReadP.val_main_v92_eq, h0, h1, h2, h3, h4, h5, h6, h7, h8]
  exact (Cert.KernelIdeal.Result.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
